-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel

variable [Facts]

def fn {F : FTy → Type} [FloatOps F] (main_arg0 : FVec F S32x64x64x64 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  main_v3
-- ==== Kernel.lean ====
abbrev S32x64x64x64 : Shape := ⟨4, ![32, 64, 64, 64]⟩
abbrev S32x576x62x62 : Shape := ⟨4, ![32, 576, 62, 62]⟩
abbrev S1x16x64x64 : Shape := ⟨4, ![1, 16, 64, 64]⟩
abbrev S1x144x62x62 : Shape := ⟨4, ![1, 144, 62, 62]⟩
abbrev S16x64x64 : Shape := ⟨3, ![16, 64, 64]⟩
abbrev S16x62x62 : Shape := ⟨3, ![16, 62, 62]⟩
abbrev S16x1x62x62 : Shape := ⟨4, ![16, 1, 62, 62]⟩
abbrev S16x9x62x62 : Shape := ⟨4, ![16, 9, 62, 62]⟩
abbrev S144x62x62 : Shape := ⟨3, ![144, 62, 62]⟩
abbrev S32x576x3844 : Shape := ⟨3, ![32, 576, 3844]⟩

abbrev nBuf : Space → Nat
  | .hbm => 3
  | .vmem => 4
  | .smem => 0
  | _ => 0

abbrev bufTy : (tb : Table) → Fin (tcTables nBuf tb) → BufTy
  | .hbm, ⟨0, _⟩ => ⟨S32x64x64x64, .f32⟩
  | .hbm, ⟨1, _⟩ => ⟨S32x576x62x62, .f32⟩
  | .hbm, ⟨2, _⟩ => ⟨S32x576x3844, .f32⟩
  | .local _ .vmem, ⟨0, _⟩ => ⟨S1x16x64x64, .f32⟩
  | .local _ .vmem, ⟨1, _⟩ => ⟨S1x16x64x64, .f32⟩
  | .local _ .vmem, ⟨2, _⟩ => ⟨S1x144x62x62, .f32⟩
  | .local _ .vmem, ⟨3, _⟩ => ⟨S1x144x62x62, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x62x62 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  slices_S16x64x64_o0_0_0_S16x62x62 : S16x64x64.Slices ![0, 0, 0] S16x62x62
  slices_S16x64x64_o0_0_1_S16x62x62 : S16x64x64.Slices ![0, 0, 1] S16x62x62
  slices_S16x64x64_o0_0_2_S16x62x62 : S16x64x64.Slices ![0, 0, 2] S16x62x62
  slices_S16x64x64_o0_1_0_S16x62x62 : S16x64x64.Slices ![0, 1, 0] S16x62x62
  slices_S16x64x64_o0_1_1_S16x62x62 : S16x64x64.Slices ![0, 1, 1] S16x62x62
  slices_S16x64x64_o0_1_2_S16x62x62 : S16x64x64.Slices ![0, 1, 2] S16x62x62
  slices_S16x64x64_o0_2_0_S16x62x62 : S16x64x64.Slices ![0, 2, 0] S16x62x62
  slices_S16x64x64_o0_2_1_S16x62x62 : S16x64x64.Slices ![0, 2, 1] S16x62x62
  slices_S16x64x64_o0_2_2_S16x62x62 : S16x64x64.Slices ![0, 2, 2] S16x62x62
  shapeCasts_S16x62x62_S16x1x62x62 : S16x62x62.ShapeCasts S16x1x62x62
  concatenates_S16x1x62x62_S16x1x62x62_S16x1x62x62_S16x1x62x62_S16x1x62x62_S16x1x62x62_S16x1x62x62_S16x1x62x62_S16x1x62x62_S16x9x62x62_d1 : Shape.Concatenates [S16x1x62x62, S16x1x62x62, S16x1x62x62, S16x1x62x62, S16x1x62x62, S16x1x62x62, S16x1x62x62, S16x1x62x62, S16x1x62x62] S16x9x62x62 1
  shapeCasts_S16x9x62x62_S144x62x62 : S16x9x62x62.ShapeCasts S144x62x62
  inb_S1x144x62x62_S1x144x62x62_0_0_0_0 : ∀ a, (![0, 0, 0, 0] : Fin 4 → Nat) a + S1x144x62x62.size a ≤ S1x144x62x62.size a
  h_S1x144x62x62 : 0 < S1x144x62x62.numel
  shapeCasts_S1x144x62x62_S144x62x62 : S1x144x62x62.ShapeCasts S144x62x62
  shapeCasts_S144x62x62_S1x144x62x62 : S144x62x62.ShapeCasts S1x144x62x62
  shapeCasts_S32x576x62x62_S32x576x3844 : S32x576x62x62.ShapeCasts S32x576x3844
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x64.size a ≤ S32x64x64x64.size a
  hwx0_0 : ∀ i : grid0.Coords, EltTy.bits .f32 = 32 ∨ (Rect.block (s := S32x64x64x64) S1x16x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x62x62.size a ≤ S32x576x62x62.size a
  hwx0_1 : ∀ i : grid0.Coords, EltTy.bits .f32 = 32 ∨ (Rect.block (s := S32x576x62x62) S1x144x62x62.size (cc0_transform_1 i) (hinb0_1 i)).WholeWords (EltTy.packing .f32)

variable [Facts₀]

abbrev win0_0 : Pipeline.Window sig grid0 :=
  Pipeline.Window.ofSpec (Memref.whole main_arg0) S1x16x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x144x62x62.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x64 : Shape := ⟨4, ![32, 64, 64, 64]⟩
abbrev S32x64x62x62 : Shape := ⟨4, ![32, 64, 62, 62]⟩
abbrev S32x64x1x62x62 : Shape := ⟨5, ![32, 64, 1, 62, 62]⟩
abbrev S32x64x9x62x62 : Shape := ⟨5, ![32, 64, 9, 62, 62]⟩
abbrev S32x576x3844 : Shape := ⟨3, ![32, 576, 3844]⟩

abbrev nBuf : Space → Nat
  | .hbm => 21
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S32x64x62x62, .f32⟩
  | .hbm, ⟨2, _⟩ => ⟨S32x64x62x62, .f32⟩
  | .hbm, ⟨3, _⟩ => ⟨S32x64x62x62, .f32⟩
  | .hbm, ⟨4, _⟩ => ⟨S32x64x62x62, .f32⟩
  | .hbm, ⟨5, _⟩ => ⟨S32x64x62x62, .f32⟩
  | .hbm, ⟨6, _⟩ => ⟨S32x64x62x62, .f32⟩
  | .hbm, ⟨7, _⟩ => ⟨S32x64x62x62, .f32⟩
  | .hbm, ⟨8, _⟩ => ⟨S32x64x62x62, .f32⟩
  | .hbm, ⟨9, _⟩ => ⟨S32x64x62x62, .f32⟩
  | .hbm, ⟨10, _⟩ => ⟨S32x64x1x62x62, .f32⟩
  | .hbm, ⟨11, _⟩ => ⟨S32x64x1x62x62, .f32⟩
  | .hbm, ⟨12, _⟩ => ⟨S32x64x1x62x62, .f32⟩
  | .hbm, ⟨13, _⟩ => ⟨S32x64x1x62x62, .f32⟩
  | .hbm, ⟨14, _⟩ => ⟨S32x64x1x62x62, .f32⟩
  | .hbm, ⟨15, _⟩ => ⟨S32x64x1x62x62, .f32⟩
  | .hbm, ⟨16, _⟩ => ⟨S32x64x1x62x62, .f32⟩
  | .hbm, ⟨17, _⟩ => ⟨S32x64x1x62x62, .f32⟩
  | .hbm, ⟨18, _⟩ => ⟨S32x64x1x62x62, .f32⟩
  | .hbm, ⟨19, _⟩ => ⟨S32x64x9x62x62, .f32⟩
  | .hbm, ⟨20, _⟩ => ⟨S32x576x3844, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩

abbrev nD : Nat := 1
abbrev τ : Topo := Topo.v7x

variable {F : FTy → Type} [FloatOps F]

class Facts₀ : Prop where
  slices_S32x64x64x64_S32x64x62x62_0_0_0_0 : S32x64x64x64.Slices ![0, 0, 0, 0] S32x64x62x62
  slices_S32x64x64x64_S32x64x62x62_0_0_0_1 : S32x64x64x64.Slices ![0, 0, 0, 1] S32x64x62x62
  slices_S32x64x64x64_S32x64x62x62_0_0_0_2 : S32x64x64x64.Slices ![0, 0, 0, 2] S32x64x62x62
  slices_S32x64x64x64_S32x64x62x62_0_0_1_0 : S32x64x64x64.Slices ![0, 0, 1, 0] S32x64x62x62
  slices_S32x64x64x64_S32x64x62x62_0_0_1_1 : S32x64x64x64.Slices ![0, 0, 1, 1] S32x64x62x62
  slices_S32x64x64x64_S32x64x62x62_0_0_1_2 : S32x64x64x64.Slices ![0, 0, 1, 2] S32x64x62x62
  slices_S32x64x64x64_S32x64x62x62_0_0_2_0 : S32x64x64x64.Slices ![0, 0, 2, 0] S32x64x62x62
  slices_S32x64x64x64_S32x64x62x62_0_0_2_1 : S32x64x64x64.Slices ![0, 0, 2, 1] S32x64x62x62
  slices_S32x64x64x64_S32x64x62x62_0_0_2_2 : S32x64x64x64.Slices ![0, 0, 2, 2] S32x64x62x62
  bcast_S32x64x62x62_S32x64x1x62x62_0_1_3_4 : S32x64x62x62.BroadcastsInDim S32x64x1x62x62 (![0, 1, 3, 4] : Fin 4 → Fin S32x64x1x62x62.rank)
  concatenates_S32x64x1x62x62_S32x64x1x62x62_S32x64x1x62x62_S32x64x1x62x62_S32x64x1x62x62_S32x64x1x62x62_S32x64x1x62x62_S32x64x1x62x62_S32x64x1x62x62_S32x64x9x62x62_d2 : Shape.Concatenates [S32x64x1x62x62, S32x64x1x62x62, S32x64x1x62x62, S32x64x1x62x62, S32x64x1x62x62, S32x64x1x62x62, S32x64x1x62x62, S32x64x1x62x62, S32x64x1x62x62] S32x64x9x62x62 2
  shapeCasts_S32x64x9x62x62_S32x576x3844 : S32x64x9x62x62.ShapeCasts S32x576x3844

variable [Facts₀]

class Facts : Prop extends Facts₀ where

variable [Facts]
-- ==== Proof.LibStackNine.lean ====
/-
  A stack of NINE unit pieces along an axis, read at one index.

  Nine arrays of one shape `s₁`, whose extent along axis `a` is 1, joined along `a` into an array of shape `t`
  (the result's extent along `a` is then 9): the element at an index `j` is the element of piece number `j a` at the
  index that agrees with `j` off the axis. The pieces are given as a family `f : Fin 9 → …`, so that a caller states
  ONE equation for all nine positions instead of nine cases. Generic in both shapes, the axis and the element type.
-/
import Idealize.ShloMosaic.Lib.Pipeline.Value

namespace Idealize.ShloMosaic

/-- The join of the nine unit pieces `f 0, …, f 8` along axis `a`, at `j`: piece `j a` at the index `i` with `j`'s
    coordinates off the axis (its coordinate on the axis is 0, the piece being one thick there). -/
theorem concatenate_nine_unit_apply {α : Type} {t s₁ : Shape} (a : Fin t.rank) (f : Fin 9 → (s₁.Idx → α))
    (h : Shape.Concatenates [s₁, s₁, s₁, s₁, s₁, s₁, s₁, s₁, s₁] t a)
    (hr : s₁.rank = t.rank) (h1 : s₁.size (a.cast hr.symm) = 1) (j : t.Idx) (n : Fin 9) (hn : (j a).val = n.val)
    (i : s₁.Idx) (hi : ∀ b : Fin s₁.rank, b.cast hr ≠ a → (i b).val = (j (b.cast hr)).val) :
    concatenate t a [⟨s₁, f 0⟩, ⟨s₁, f 1⟩, ⟨s₁, f 2⟩, ⟨s₁, f 3⟩, ⟨s₁, f 4⟩, ⟨s₁, f 5⟩, ⟨s₁, f 6⟩, ⟨s₁, f 7⟩, ⟨s₁, f 8⟩] h j
      = f n i :=
  concatenate_ofFn_unit_apply a f h hr h1 j n hn i hi

end Idealize.ShloMosaic
-- ==== Proof.Spec.lean ====
/-
  The function both programs compute: the 3x3, stride-1 patch extraction of a [32, 64, 64, 64] array
  (batch, channel, row, column).

  Output row `r` of batch entry `b` belongs to channel `r / 9` and to tap `r % 9` of the 3x3 window, whose offset
  inside the window is (`r % 9 / 3`, `r % 9 % 3`); at output position (`h`, `w`), 0 ≤ h, w < 62, it holds the
  input at (b, r / 9, h + r % 9 / 3, w + r % 9 % 3). `patches4` is that array with the positions kept as a 62 x 62
  grid, `patches` the same with the positions flattened row-major to `62 * h + w`; the second is the row-major
  reshape of the first (`shapeCast_patches4`). No arithmetic is done on the entries, so everything is stated for
  an arbitrary entry type.
-/
import Idealize.ShloMosaic.Lib.ValueIdx
import Idealize.ShloMosaic.Lib.Pipeline.Value

namespace Cert.Patches

open Idealize.ShloMosaic Idealize.ShloMosaic.ValueIdx

/-- The input's shape; the output with its positions as a grid; the output with its positions flattened. -/
abbrev SX : Shape := ⟨4, ![32, 64, 64, 64]⟩
abbrev SO4 : Shape := ⟨4, ![32, 576, 62, 62]⟩
abbrev SO3 : Shape := ⟨3, ![32, 576, 3844]⟩

/-- Where output row `r` at position (`h`, `w`) of batch entry `b` reads the input. -/
def src (b : Fin 32) (r : Fin 576) (h w : Fin 62) : SX.Idx :=
  ix4 b ⟨r.val / 9, by have := r.isLt; omega⟩
    ⟨h.val + r.val % 9 / 3, by have := h.isLt; omega⟩
    ⟨w.val + r.val % 9 % 3, by have := w.isLt; omega⟩

/-- The patches with the output positions as a 62 x 62 grid. -/
def patches4 {α : Type} (x : SX.Idx → α) : SO4.Idx → α :=
  fun i => x (src (i 0) (i 1) (i 2) (i 3))

/-- The patches with the output positions flattened: position `l` is row `l / 62`, column `l % 62`. -/
def patches {α : Type} (x : SX.Idx → α) : SO3.Idx → α :=
  fun i => x (src (i 0) (i 1) ⟨(i 2).val / 62, by have : (i 2).val < 3844 := (i 2).isLt; omega⟩
    ⟨(i 2).val % 62, Nat.mod_lt _ (by decide)⟩)

/-- Flattening the 62 x 62 grid of positions row-major turns `patches4` into `patches`. -/
theorem shapeCast_patches4 {α : Type} (x : SX.Idx → α) (h : SO4.ShapeCasts SO3) :
    shapeCast SO3 (patches4 x) h = patches x := by
  funext i
  have h2 : (i 2).val < 3844 := (i 2).isLt
  refine (shapeCast_apply _ h i
    (ix4 (i 0) (i 1) ⟨(i 2).val / 62, by omega⟩ ⟨(i 2).val % 62, Nat.mod_lt _ (by decide)⟩)
    (by rw [Shape.rowMajor_val_four, Shape.rowMajor_val_three]
        show (((i 0).val * 576 + (i 1).val) * 62 + (i 2).val / 62) * 62 + (i 2).val % 62
          = ((i 0).val * 576 + (i 1).val) * 3844 + (i 2).val
        omega)).trans ?_
  rfl

end Cert.Patches
-- ==== Proof.KernelBlock.lean ====
/-
  What the kernel body stores, read at one entry.

  The body loads a [1, 16, 64, 64] block (16 channels of one batch entry), cuts from each channel the nine
  62 x 62 windows at offsets (di, dj), 0 ≤ di, dj < 3, in the order 3 * di + dj, stacks the nine on a new axis right
  after the channel axis and merges the two: row `r` of the stored [1, 144, 62, 62] block is channel `r / 9` of the
  loaded block, window `r % 9`; its entry (h, w) is the loaded block at (r / 9, h + r % 9 / 3, w + r % 9 % 3).
  `block_eq` then reads a block of the input array through the same formula: when the loaded block is the input at
  batch entry `b`, channels `16 q …`, the stored block is `patches4` at batch entry `b`, rows `144 q …`.
-/
import proofs.«178367_j9363028706226_1_alg».proof.Proof.Gen.KernelIdeal.Skeleton
import proofs.«178367_j9363028706226_1_alg».proof.Proof.LibStackNine
import proofs.«178367_j9363028706226_1_alg».proof.Proof.Spec

noncomputable section

namespace Cert.KernelIdeal.Block

open Cert.KernelIdeal Cert.KernelIdeal.Gen Idealize.ShloMosaic Idealize.ShloMosaic.ValueIdx Cert.Patches

variable {F : FTy → Type} [FloatOps F]

/-- Window number `n` of a [16, 64, 64] stack of channels starts at row `n / 3`, column `n % 3`, and fits. -/
theorem tap_slices (n : Fin 9) : S16x64x64.Slices ![0, n.val / 3, n.val % 3] S16x62x62 :=
  ⟨rfl, fun a => match a with
    | ⟨0, _⟩ => by show 0 + 16 ≤ 16; omega
    | ⟨1, _⟩ => by have := n.isLt; show n.val / 3 + 62 ≤ 64; omega
    | ⟨2, _⟩ => by show n.val % 3 + 62 ≤ 64; omega⟩

/-- Window number `n` of every channel of the loaded block, with the unit axis the stack is joined along. -/
def tap (v0 : Vec F S1x16x64x64 .f32) (n : Fin 9) : FVec F S16x1x62x62 .f32 :=
  shapeCast S16x1x62x62
    (extractStridedSlice S16x62x62 ![0, n.val / 3, n.val % 3] (shapeCast S16x64x64 v0 Gen.shapeCasts_S1x16x64x64_S16x64x64) (tap_slices n))
    Gen.shapeCasts_S16x62x62_S16x1x62x62

/-- The stored value at `(0, r, h, w)` is the loaded block at `(0, r / 9, h + r % 9 / 3, w + r % 9 % 3)`. -/
theorem pay_apply (v0 : Vec F S1x16x64x64 .f32) (j : S1x144x62x62.Idx) :
    k0_pay1 v0 j = v0 (ix4 (0 : Fin 1) (⟨(j 1).val / 9, by have : (j 1).val < 144 := (j 1).isLt; omega⟩ : Fin 16)
      (⟨(j 2).val + (j 1).val % 9 / 3, by have : (j 2).val < 62 := (j 2).isLt; omega⟩ : Fin 64)
      (⟨(j 3).val + (j 1).val % 9 % 3, by have : (j 3).val < 62 := (j 3).isLt; omega⟩ : Fin 64)) := by
  have h0 : (j 0).val < 1 := (j 0).isLt
  have h1 : (j 1).val < 144 := (j 1).isLt
  have h2 : (j 2).val < 62 := (j 2).isLt
  have h3 : (j 3).val < 62 := (j 3).isLt
  unfold k0_pay1
  -- [1,144,62,62] at (0, r, h, w) reads [144,62,62] at (r, h, w)
  refine (shapeCast_apply _ _ j (ix3 (⟨(j 1).val, h1⟩ : Fin 144) (⟨(j 2).val, h2⟩ : Fin 62) (⟨(j 3).val, h3⟩ : Fin 62))
    (by rw [Shape.rowMajor_val_three, Shape.rowMajor_val_four]
        show ((j 1).val * 62 + (j 2).val) * 62 + (j 3).val = (((j 0).val * 144 + (j 1).val) * 62 + (j 2).val) * 62 + (j 3).val
        omega)).trans ?_
  -- [144,62,62] at (r, h, w) reads the stack [16,9,62,62] at (r / 9, r % 9, h, w)
  refine (shapeCast_apply _ _ _ (ix4 (⟨(j 1).val / 9, by omega⟩ : Fin 16) (⟨(j 1).val % 9, by omega⟩ : Fin 9) (⟨(j 2).val, h2⟩ : Fin 62) (⟨(j 3).val, h3⟩ : Fin 62))
    (by rw [Shape.rowMajor_val_four, Shape.rowMajor_val_three]
        show (((j 1).val / 9 * 9 + (j 1).val % 9) * 62 + (j 2).val) * 62 + (j 3).val = ((j 1).val * 62 + (j 2).val) * 62 + (j 3).val
        omega)).trans ?_
  -- the stack at (c, n, h, w) is window n at (c, 0, h, w)
  refine (concatenate_nine_unit_apply (t := S16x9x62x62) (s₁ := S16x1x62x62) (1 : Fin 4) (tap v0) _ rfl rfl _ (⟨(j 1).val % 9, by omega⟩ : Fin 9) rfl
    (ix4 (⟨(j 1).val / 9, by omega⟩ : Fin 16) (0 : Fin 1) (⟨(j 2).val, h2⟩ : Fin 62) (⟨(j 3).val, h3⟩ : Fin 62))
    (fun b hb => match b with
      | ⟨0, _⟩ => rfl
      | ⟨1, _⟩ => absurd rfl hb
      | ⟨2, _⟩ => rfl
      | ⟨3, _⟩ => rfl)).trans ?_
  unfold tap
  -- [16,1,62,62] at (c, 0, h, w) reads [16,62,62] at (c, h, w)
  refine (shapeCast_apply _ _ _ (ix3 (⟨(j 1).val / 9, by omega⟩ : Fin 16) (⟨(j 2).val, h2⟩ : Fin 62) (⟨(j 3).val, h3⟩ : Fin 62))
    (by rw [Shape.rowMajor_val_three, Shape.rowMajor_val_four]
        show ((j 1).val / 9 * 62 + (j 2).val) * 62 + (j 3).val = (((j 1).val / 9 * 1 + 0) * 62 + (j 2).val) * 62 + (j 3).val
        omega)).trans ?_
  -- the window at (c, h, w) reads the channels at (c, di + h, dj + w)
  refine (extractStridedSlice_apply _ _ _ _
    (ix3 (⟨(j 1).val / 9, by omega⟩ : Fin 16) (⟨(j 2).val + (j 1).val % 9 / 3, by omega⟩ : Fin 64) (⟨(j 3).val + (j 1).val % 9 % 3, by omega⟩ : Fin 64))
    (fun a => match a with
      | ⟨0, _⟩ => by show (j 1).val / 9 = 0 + (j 1).val / 9; omega
      | ⟨1, _⟩ => by show (j 2).val + (j 1).val % 9 / 3 = (j 1).val % 9 / 3 + (j 2).val; omega
      | ⟨2, _⟩ => by show (j 3).val + (j 1).val % 9 % 3 = (j 1).val % 9 % 3 + (j 3).val; omega)).trans ?_
  -- [16,64,64] at (c, y, z) reads the loaded block at (0, c, y, z)
  exact shapeCast_apply _ _ _ _
    (by rw [Shape.rowMajor_val_four, Shape.rowMajor_val_three]
        show ((0 * 16 + (j 1).val / 9) * 64 + ((j 2).val + (j 1).val % 9 / 3)) * 64 + ((j 3).val + (j 1).val % 9 % 3)
          = ((j 1).val / 9 * 64 + ((j 2).val + (j 1).val % 9 / 3)) * 64 + ((j 3).val + (j 1).val % 9 % 3)
        omega)

/-- A block of the patches: if the loaded block is the input at batch entry `b`, channels `16 q + ·`, then what the
    body stores, at `y`, is `patches4` of the input at the index `i` with batch entry `b`, row `144 q + y 1` and
    `y`'s position. -/
theorem block_eq (x : Vec F S32x64x64x64 .f32) (x0 : Vec F S1x16x64x64 .f32) (b q : Nat) (hb : b < 32) (hq : q < 4)
    (hx0 : ∀ (z : S1x16x64x64.Idx) (k : S32x64x64x64.Idx), (k 0).val = b + (z 0).val → (k 1).val = q * 16 + (z 1).val →
      (k 2).val = (z 2).val → (k 3).val = (z 3).val → x0 z = x k)
    (y : S1x144x62x62.Idx) (i : S32x576x62x62.Idx)
    (hi0 : (i 0).val = b + (y 0).val) (hi1 : (i 1).val = q * 144 + (y 1).val)
    (hi2 : (i 2).val = (y 2).val) (hi3 : (i 3).val = (y 3).val) :
    k0_pay1 x0 y = patches4 x i := by
  have h0 : (y 0).val < 1 := (y 0).isLt
  have h1 : (y 1).val < 144 := (y 1).isLt
  refine (pay_apply x0 y).trans ?_
  refine hx0 _ _ ?_ ?_ ?_ ?_
  · show (i 0).val = b + 0; omega
  · show (i 1).val / 9 = q * 16 + (y 1).val / 9; omega
  · show (i 2).val + (i 1).val % 9 / 3 = (y 2).val + (y 1).val % 9 / 3; omega
  · show (i 3).val + (i 1).val % 9 % 3 = (y 3).val + (y 1).val % 9 % 3; omega

end Cert.KernelIdeal.Block

end
-- ==== Proof.KernelArray.lean ====
/-
  The kernel program's result: from blocks to the whole array, then through the final reshape.

  The grid is 32 x 4: point (b, q) loads the input's block at batch entry `b`, channels `16 q …`, and writes the
  [1, 144, 62, 62] block of the [32, 576, 62, 62] array at batch entry `b`, rows `144 q …`. By `Block.block_eq`
  what it writes is that block of `patches4` of the input; the 128 blocks tile the array (the point covering index
  `i` is (i 0, i 1 / 144)), so after the region the array is `patches4` of the input. The one host operation after
  the region reshapes it row-major to [32, 576, 3844], which is `patches` (`shapeCast_patches4`).
-/
import proofs.«178367_j9363028706226_1_alg».proof.Proof.Gen.KernelIdeal.Frame
import proofs.«178367_j9363028706226_1_alg».proof.Proof.KernelBlock
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.Patches

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- The two index maps, decided over the 128 points: input and output blocks move together, over batch entries
    and channel groups only. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) < 32 ∧ win0_1.index t (1 : Fin 4) < 4 :=
  (by decide +kernel : ∀ t : Fin grid0.N, _)

/-- Every (batch entry, channel group) is some point's output block. -/
theorem idx_onto : ∀ (q0 : Fin 32) (q1 : Fin 4), ∃ t : Fin cfg0.N, win0_1.index t = ![q0.val, q1.val, 0, 0] :=
  (by decide +kernel : ∀ (q0 : Fin 32) (q1 : Fin 4), ∃ t : Fin grid0.N, win0_1.index t = ![q0.val, q1.val, 0, 0])

/-- The input window's block at point `t`, entry `z`, is the input array at the block's offset plus `z`. -/
theorem iblk_apply (c : Dev nD) (t : Fin cfg0.N) (z : S1x16x64x64.Idx) (k : S32x64x64x64.Idx)
    (hk0 : (k 0).val = win0_1.index t (0 : Fin 4) + (z 0).val) (hk1 : (k 1).val = win0_1.index t (1 : Fin 4) * 16 + (z 1).val)
    (hk2 : (k 2).val = (z 2).val) (hk3 : (k 3).val = (z 3).val) :
    (iblk m c 0 t : Vec F S1x16x64x64 .f32) z = (V m c main_arg0 : Vec F S32x64x64x64 .f32) k := by
  obtain ⟨e0, e1, e2, e3, -, -, -, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * (z 0).val = (k 0).val; omega
  | ⟨1, _⟩ => show win0_0.index t (1 : Fin 4) * 16 + 1 * (z 1).val = (k 1).val; omega
  | ⟨2, _⟩ => show win0_0.index t (2 : Fin 4) * 64 + 1 * (z 2).val = (k 2).val; omega
  | ⟨3, _⟩ => show win0_0.index t (3 : Fin 4) * 64 + 1 * (z 3).val = (k 3).val; omega

/-- WHAT POINT `t` WRITES BACK is block `t` of `patches4` of the input array as the region finds it. -/
theorem flushed_eq (c : Dev nD) (t : Fin cfg0.N) :
    (dats m 0 c).flushed 1 t = ((cfg0.win 1).blk t).view.read (Elt F) (patches4 (V m c main_arg0 : Vec F S32x64x64x64 .f32)) := by
  show (cfg0.win 1).cut (grid0.coords t) ((dats m 0 c).after 1 t) = _
  rw [after0_1]
  unfold out0_1
  rw [View.canon_unit_zero hz]
  simp only [View.ld_unit_zero (S := S1x16x64x64) hz]
  obtain ⟨-, -, -, -, e4, e5, e6, e7⟩ := idx_facts t
  funext y
  show k0_pay1 (iblk m c 0 t) y = patches4 (V m c main_arg0 : Vec F S32x64x64x64 .f32) (((cfg0.win 1).blk t).view.emb y)
  refine Block.block_eq (V m c main_arg0) (iblk m c 0 t) (win0_1.index t (0 : Fin 4)) (win0_1.index t (1 : Fin 4)) e6 e7
    (fun z k hk0 hk1 hk2 hk3 => iblk_apply m c t z k hk0 hk1 hk2 hk3) y _ ?_ ?_ ?_ ?_
  · show win0_1.index t (0 : Fin 4) * 1 + 1 * (y 0).val = _; omega
  · show win0_1.index t (1 : Fin 4) * 144 + 1 * (y 1).val = _; omega
  · show win0_1.index t (2 : Fin 4) * 62 + 1 * (y 2).val = _; omega
  · show win0_1.index t (3 : Fin 4) * 62 + 1 * (y 3).val = _; omega

/-- An index of the array is in point `t`'s block iff each coordinate is in the block's range on its axis. -/
theorem mem_blk (t : Fin cfg0.N) (i : S32x576x62x62.Idx) :
    i ∈ ((cfg0.win 1).blk t).view.set ↔ ∀ a : Fin 4, win0_1.index t a * S1x144x62x62.size a ≤ (i a).val ∧ (i a).val < win0_1.index t a * S1x144x62x62.size a + S1x144x62x62.size a := by
  show i ∈ ((View.whole main_v0).slice (win0_1.rect t)).set ↔ _
  rw [View.set_slice_whole, Rect.mem_set_unit]
  exact Iff.rfl

/-- The blocks tile the array: index `i` is in the block of the point at batch entry `i 0`, channel group `i 1 / 144`. -/
theorem cover (i : S32x576x62x62.Idx) : ∃ t : Fin cfg0.N, (cfg0.win 1).flush t = true ∧ i ∈ ((cfg0.win 1).blk t).view.set := by
  have hi0 : (i 0).val < 32 := (i 0).isLt
  have hi1 : (i 1).val < 576 := (i 1).isLt
  have hi2 : (i 2).val < 62 := (i 2).isLt
  have hi3 : (i 3).val < 62 := (i 3).isLt
  obtain ⟨t, ht⟩ := idx_onto ⟨(i 0).val, hi0⟩ ⟨(i 1).val / 144, by omega⟩
  have q0 : win0_1.index t (0 : Fin 4) = (i 0).val := congrFun ht 0
  have q1 : win0_1.index t (1 : Fin 4) = (i 1).val / 144 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 144 ≤ (i 1).val ∧ (i 1).val < win0_1.index t (1 : Fin 4) * 144 + 144; omega
  | ⟨2, _⟩ => show win0_1.index t (2 : Fin 4) * 62 ≤ (i 2).val ∧ (i 2).val < win0_1.index t (2 : Fin 4) * 62 + 62; omega
  | ⟨3, _⟩ => show win0_1.index t (3 : Fin 4) * 62 ≤ (i 3).val ∧ (i 3).val < win0_1.index t (3 : Fin 4) * 62 + 62; omega

/-- THE ARRAY after the region: `patches4` of the input. -/
theorem final (c : Dev nD) : (dats m 0 c).arrAt 1 cfg0.N = patches4 (m ((c : Thread nD τ).loc main_arg0) : Vec F S32x64x64x64 .f32) := by
  rw [← V_main_arg0 m c]
  exact (dats m 0 c).arrAt_eq_of_cover 1 (patches4 (V m c main_arg0 : Vec F S32x64x64x64 .f32)) (fun t _ => flushed_eq m c t) cover

/-- The result after the reshape that follows the region: `patches` of the input. -/
theorem tail_eq (c : Dev nD) :
    Pipeline.afterTail₀ cfgs (dats m) 0 (V0 m) [hostOps1] c main_v1 = patches (m ((c : Thread nD τ).loc main_arg0) : Vec F S32x64x64x64 .f32) := by
  unfold Pipeline.afterTail₀
  show StableHlo.after hostOps1 _ (Proc.devRef .tc main_v1) = _
  after_results
  rw [(Pipeline.withArrays_arr spec0 launch0.win.arr_inj c _ _ 1).trans (final m c)]
  exact shapeCast_patches4 _ _

/-- The run, read: the result at `patches` of the argument, the argument unchanged. -/
theorem run : θ_run defs (onTc (τ := τ) (main (F := F))) ⟨m, fun _ => 0, ρ⟩ fun r => ∀ c : Dev nD,
      r.2.mem ((c : Thread nD τ).loc main_v1) = patches (m ((c : Thread nD τ).loc main_arg0) : Vec F S32x64x64x64 .f32)
      ∧ r.2.mem ((c : Thread nD τ).loc main_arg0) = m ((c : Thread nD τ).loc main_arg0) :=
  (θ_run defs _ _).mono (fun r h c =>
      ⟨((h c).2 main_v1 (Pipeline.mem_restRefs_of main_v1 (by decide) (by decide))).trans (tail_eq m c),
       ((h c).1 0).trans (((dats m 0 c).arrAt_in 0 rfl _).trans ((A_eq m c 0).trans (V_main_arg0 m c)))⟩)
    (run_main m ρ)

end Cert.KernelIdeal.Array

end
-- ==== Proof.RefUnfold.lean ====
/-
  The reference program read at one entry: it computes `patches`.

  The reference cuts from the whole [32, 64, 64, 64] input the nine [32, 64, 62, 62] windows at offsets (di, dj),
  0 ≤ di, dj < 3, in the order 3 * di + dj, gives each a unit axis after the channel axis, joins the nine along it
  into [32, 64, 9, 62, 62] and reshapes row-major to [32, 576, 3844]. Row-major, entry (b, r, l) of the result is
  entry (b, r / 9, r % 9, l / 62, l % 62) of the join, which is window `r % 9` at (b, r / 9, l / 62, l % 62), which is
  the input at (b, r / 9, l / 62 + r % 9 / 3, l % 62 + r % 9 % 3).
-/
import proofs.«178367_j9363028706226_1_alg».proof.Proof.Gen.ReferenceIdeal.Run
import proofs.«178367_j9363028706226_1_alg».proof.Proof.Gen.ReferenceIdeal.Read
import proofs.«178367_j9363028706226_1_alg».proof.Proof.LibStackNine
import proofs.«178367_j9363028706226_1_alg».proof.Proof.Spec

noncomputable section

namespace Cert.ReferenceIdeal.Unfold

open Cert.ReferenceIdeal Cert.ReferenceIdeal.Gen Cert.ReferenceIdeal.Read Idealize.ShloMosaic Idealize.ShloMosaic.ValueIdx Cert.Patches

variable {F : FTy → Type} [FloatOps F]

/-- Window number `n` of the whole input starts at row `n / 3`, column `n % 3`, and fits. -/
theorem tap_slices (n : Fin 9) : S32x64x64x64.Slices ![0, 0, n.val / 3, n.val % 3] S32x64x62x62 :=
  ⟨rfl, fun a => match a with
    | ⟨0, _⟩ => by show 0 + 32 ≤ 32; omega
    | ⟨1, _⟩ => by show 0 + 64 ≤ 64; omega
    | ⟨2, _⟩ => by have := n.isLt; show n.val / 3 + 62 ≤ 64; omega
    | ⟨3, _⟩ => by show n.val % 3 + 62 ≤ 64; omega⟩

/-- Window number `n` of the input, with the unit axis the nine are joined along. -/
def tap (x : Vec F S32x64x64x64 .f32) (n : Fin 9) : Vec F S32x64x1x62x62 .f32 :=
  broadcastInDim S32x64x1x62x62 ![0, 1, 3, 4] Gen.bcast_S32x64x62x62_S32x64x1x62x62_0_1_3_4
    (extractStridedSlice S32x64x62x62 ![0, 0, n.val / 3, n.val % 3] x (tap_slices n))

/-- The reference's result is `patches` of its argument. -/
theorem result_eq (x : Vec F S32x64x64x64 .f32) : val_main_v19 (F := F) x = patches x := by
  funext i
  have h0 : (i 0).val < 32 := (i 0).isLt
  have h1 : (i 1).val < 576 := (i 1).isLt
  have h2 : (i 2).val < 3844 := (i 2).isLt
  unfold val_main_v19 val_main_v18
  -- [32,576,3844] at (b, r, l) reads the join [32,64,9,62,62] at (b, r / 9, r % 9, l / 62, l % 62)
  refine (shapeCast_apply _ _ i
    (ix5 (⟨(i 0).val, h0⟩ : Fin 32) (⟨(i 1).val / 9, by omega⟩ : Fin 64) (⟨(i 1).val % 9, by omega⟩ : Fin 9)
      (⟨(i 2).val / 62, by omega⟩ : Fin 62) (⟨(i 2).val % 62, by omega⟩ : Fin 62))
    (by rw [Shape.rowMajor_val_five, Shape.rowMajor_val_three]
        show ((((i 0).val * 64 + (i 1).val / 9) * 9 + (i 1).val % 9) * 62 + (i 2).val / 62) * 62 + (i 2).val % 62
          = ((i 0).val * 576 + (i 1).val) * 3844 + (i 2).val
        omega)).trans ?_
  -- the join at (b, c, n, h, w) is window n at (b, c, 0, h, w)
  refine (concatenate_nine_unit_apply (t := S32x64x9x62x62) (s₁ := S32x64x1x62x62) (2 : Fin 5) (tap x) _ rfl rfl _
    (⟨(i 1).val % 9, by omega⟩ : Fin 9) rfl
    (ix5 (⟨(i 0).val, h0⟩ : Fin 32) (⟨(i 1).val / 9, by omega⟩ : Fin 64) (0 : Fin 1)
      (⟨(i 2).val / 62, by omega⟩ : Fin 62) (⟨(i 2).val % 62, by omega⟩ : Fin 62))
    (fun b hb => match b with
      | ⟨0, _⟩ => rfl
      | ⟨1, _⟩ => rfl
      | ⟨2, _⟩ => absurd rfl hb
      | ⟨3, _⟩ => rfl
      | ⟨4, _⟩ => rfl)).trans ?_
  unfold tap
  -- the unit axis dropped: [32,64,1,62,62] at (b, c, 0, h, w) reads [32,64,62,62] at (b, c, h, w)
  refine (broadcastInDim_apply _ _ _ _
    (ix4 (⟨(i 0).val, h0⟩ : Fin 32) (⟨(i 1).val / 9, by omega⟩ : Fin 64) (⟨(i 2).val / 62, by omega⟩ : Fin 62) (⟨(i 2).val % 62, by omega⟩ : Fin 62))
    (fun a => match a with
      | ⟨0, _⟩ => by show (i 0).val = if (32 : Nat) = 1 then 0 else (i 0).val; rw [if_neg (by decide)]
      | ⟨1, _⟩ => by show (i 1).val / 9 = if (64 : Nat) = 1 then 0 else (i 1).val / 9; rw [if_neg (by decide)]
      | ⟨2, _⟩ => by show (i 2).val / 62 = if (62 : Nat) = 1 then 0 else (i 2).val / 62; rw [if_neg (by decide)]
      | ⟨3, _⟩ => by show (i 2).val % 62 = if (62 : Nat) = 1 then 0 else (i 2).val % 62; rw [if_neg (by decide)])).trans ?_
  -- the window at (b, c, h, w) reads the input at (b, c, di + h, dj + w)
  exact extractStridedSlice_apply _ _ _ _ _
    (fun a => match a with
      | ⟨0, _⟩ => by show (i 0).val = 0 + (i 0).val; omega
      | ⟨1, _⟩ => by show (i 1).val / 9 = 0 + (i 1).val / 9; omega
      | ⟨2, _⟩ => by show (i 2).val / 62 + (i 1).val % 9 / 3 = (i 1).val % 9 / 3 + (i 2).val / 62; omega
      | ⟨3, _⟩ => by show (i 2).val % 62 + (i 1).val % 9 % 3 = (i 1).val % 9 % 3 + (i 2).val % 62; omega)

end Cert.ReferenceIdeal.Unfold

end
-- ==== Proof.lean ====
/-
  The certificate of the 3x3 patch extraction (unfold) kernel against its jnp reference.

  Both programs move entries of the [32, 64, 64, 64] input into a [32, 576, 3844] result and do no arithmetic:
  result (b, r, l) is the input at (b, r / 9, l / 62 + r % 9 / 3, l % 62 + r % 9 % 3) — `Cert.Patches.patches`
  (Proof/Spec.lean). The kernel writes it block by block into a [32, 576, 62, 62] array over a 32 x 4 grid and
  reshapes that array (Proof/KernelBlock.lean, Proof/KernelArray.lean); the reference slices the whole input nine
  times, stacks the slices and reshapes (Proof/RefUnfold.lean). No law of the extended reals is used, and the
  precondition is never opened: the equality is one of index arithmetic.
  The three frames: the two kernel programs' by their generated frame theorems, the reference's by its generated run
  with the result dropped. The idealization rewrote nothing, so `preserves` is `True`.
-/
import proofs.«178367_j9363028706226_1_alg».proof.Defs
import proofs.«178367_j9363028706226_1_alg».proof.Proof.Gen.Kernel
import proofs.«178367_j9363028706226_1_alg».proof.Proof.Gen.Kernel.Skeleton
import proofs.«178367_j9363028706226_1_alg».proof.Proof.Gen.Kernel.Launch
import proofs.«178367_j9363028706226_1_alg».proof.Proof.Gen.Kernel.Points
import proofs.«178367_j9363028706226_1_alg».proof.Proof.Gen.Kernel.Frame
import proofs.«178367_j9363028706226_1_alg».proof.Proof.Gen.KernelIdeal
import proofs.«178367_j9363028706226_1_alg».proof.Proof.Gen.KernelIdeal.Skeleton
import proofs.«178367_j9363028706226_1_alg».proof.Proof.Gen.KernelIdeal.Launch
import proofs.«178367_j9363028706226_1_alg».proof.Proof.Gen.KernelIdeal.Points
import proofs.«178367_j9363028706226_1_alg».proof.Proof.Gen.KernelIdeal.Frame
import proofs.«178367_j9363028706226_1_alg».proof.Proof.Gen.ReferenceIdeal
import proofs.«178367_j9363028706226_1_alg».proof.Proof.Gen.ReferenceIdeal.Run
import proofs.«178367_j9363028706226_1_alg».proof.Proof.Gen.ReferenceIdeal.Read
import proofs.«178367_j9363028706226_1_alg».proof.Proof.Gen.Pre_finite_inputs
import proofs.«178367_j9363028706226_1_alg».proof.Proof.KernelArray
import proofs.«178367_j9363028706226_1_alg».proof.Proof.RefUnfold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at `patches` of the (agreeing) arguments. -/
theorem algebraic : Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Unfold.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
